-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x3 : Shape := ⟨3, ![32, 4096, 3]⟩
abbrev S2048x3 : Shape := ⟨2, ![2048, 3]⟩
abbrev S_ : Shape := ⟨0, ![]⟩

class Facts : Prop where
  bcast_S_S32x4096x3 : S_.BroadcastsInDim S32x4096x3 (![] : Fin 0 → Fin S32x4096x3.rank)
  reducesTo_S32x4096x3_S_d0_1_2 : S32x4096x3.ReducesTo [0, 1, 2] S_
  h_S_ : 0 < S_.numel
  bcast_S_S2048x3 : S_.BroadcastsInDim S2048x3 (![] : Fin 0 → Fin S2048x3.rank)
  reducesTo_S2048x3_S_d0_1 : S2048x3.ReducesTo [0, 1] S_

variable [Facts]

def fn {F : FTy → Type} [FloatOps F] (main_arg0 : FVec F S32x4096x3 .f32) (main_arg1 : FVec F S2048x3 .f32) : IVec S_ 1 :=
  let main_v0 : FVec F S32x4096x3 .f32 := Host.absf main_arg0
  let main_cst : FVec F S_ .f32 := constant S_ .f32 0x7F800000#32
  let main_v1 : FVec F S32x4096x3 .f32 := broadcastInDim S32x4096x3 ![] bcast_S_S32x4096x3 main_cst
  let main_v2 : IVec S32x4096x3 1 := cmpf .olt main_v0 main_v1
  let main_c : IVec S_ 1 := constantI S_ 1 1#1
  let main_v3 : IVec S_ 1 := (fun x v => Host.reduce IntOp.andi x v reducesTo_S32x4096x3_S_d0_1_2 h_S_) main_v2 main_c
  let main_v4 : FVec F S2048x3 .f32 := Host.absf main_arg1
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  main_v8
-- ==== Kernel.lean ====
abbrev S32x4096x3 : Shape := ⟨3, ![32, 4096, 3]⟩
abbrev S2048x3 : Shape := ⟨2, ![2048, 3]⟩
abbrev S32x2048 : Shape := ⟨2, ![32, 2048]⟩
abbrev S8x512x3 : Shape := ⟨3, ![8, 512, 3]⟩
abbrev S512x3 : Shape := ⟨2, ![512, 3]⟩
abbrev S8x512 : Shape := ⟨2, ![8, 512]⟩
abbrev S512 : Shape := ⟨1, ![512]⟩
abbrev S8x512x512 : Shape := ⟨3, ![8, 512, 512]⟩
abbrev S512x1 : Shape := ⟨2, ![512, 1]⟩
abbrev S8x512x1 : Shape := ⟨3, ![8, 512, 1]⟩
abbrev S1x512x1 : Shape := ⟨3, ![1, 512, 1]⟩
abbrev S8x1x512 : Shape := ⟨3, ![8, 1, 512]⟩

abbrev nBuf : Space → Nat
  | .hbm => 3
  | .vmem => 7
  | .smem => 0
  | _ => 0

abbrev bufTy : (tb : Table) → Fin (tcTables nBuf tb) → BufTy
  | .hbm, ⟨0, _⟩ => ⟨S32x4096x3, .f32⟩
  | .hbm, ⟨1, _⟩ => ⟨S2048x3, .f32⟩
  | .hbm, ⟨2, _⟩ => ⟨S32x2048, .f32⟩
  | .local _ .vmem, ⟨0, _⟩ => ⟨S8x512x3, .f32⟩
  | .local _ .vmem, ⟨1, _⟩ => ⟨S8x512x3, .f32⟩
  | .local _ .vmem, ⟨2, _⟩ => ⟨S512x3, .f32⟩
  | .local _ .vmem, ⟨3, _⟩ => ⟨S512x3, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S32x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v57 : BitVec 1 := Scalar.cmpi .eq arg2 c7_i32
  let v58 : BitVec 32 := Scalar.extui v57
  let c0_i32_14 : BitVec 32 := 0#32
  let v59 : BitVec 1 := Scalar.cmpi .ne v58 c0_i32_14
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x3_S8x512x3_0_0_0 : ∀ a, (![0, 0, 0] : Fin 3 → Nat) a + S8x512x3.size a ≤ S8x512x3.size a
  h_S8x512x3 : 0 < S8x512x3.numel
  inb_S512x3_S512x3_0_0 : ∀ a, (![0, 0] : Fin 2 → Nat) a + S512x3.size a ≤ S512x3.size a
  h_S512x3 : 0 < S512x3.numel
  reduces_S8x512x3_S8x512 : S8x512x3.Reduces [2] S8x512
  reduces_S512x3_S512 : S512x3.Reduces [1] S512
  slices_S512x3_o0_0_S512x1 : S512x3.Slices ![0, 0] S512x1
  shapeCasts_S512x1_S512 : S512x1.ShapeCasts S512
  slices_S8x512x3_o0_0_0_S8x512x1 : S8x512x3.Slices ![0, 0, 0] S8x512x1
  shapeCasts_S8x512x1_S8x512 : S8x512x1.ShapeCasts S8x512
  shapeCasts_S512_S1x512x1 : S512.ShapeCasts S1x512x1
  shapeCasts_S8x512_S8x1x512 : S8x512.ShapeCasts S8x1x512
  broadcasts_S1x512x1_S8x512x512 : S1x512x1.Broadcasts S8x512x512
  broadcasts_S8x1x512_S8x512x512 : S8x1x512.Broadcasts S8x512x512
  slices_S512x3_o0_1_S512x1 : S512x3.Slices ![0, 1] S512x1
  slices_S8x512x3_o0_0_1_S8x512x1 : S8x512x3.Slices ![0, 0, 1] S8x512x1
  slices_S512x3_o0_2_S512x1 : S512x3.Slices ![0, 2] S512x1
  slices_S8x512x3_o0_0_2_S8x512x1 : S8x512x3.Slices ![0, 0, 2] S8x512x1
  reduces_S8x512x512_S8x512 : S8x512x512.Reduces [2] S8x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S32x4096x3.size a
  hwx0_0 : ∀ i : grid0.Coords, EltTy.bits .f32 = 32 ∨ (Rect.block (s := S32x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S2048x3.size a
  hwx0_1 : ∀ i : grid0.Coords, EltTy.bits .f32 = 32 ∨ (Rect.block (s := S2048x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x2048.size a
  hwx0_2 : ∀ i : grid0.Coords, EltTy.bits .f32 = 32 ∨ (Rect.block (s := S32x2048) S8x512.size (cc0_transform_2 i) (hinb0_2 i)).WholeWords (EltTy.packing .f32)

variable [Facts₀]

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x4096x3 : Shape := ⟨3, ![32, 4096, 3]⟩
abbrev S2048x3 : Shape := ⟨2, ![2048, 3]⟩
abbrev S32x4096x2048 : Shape := ⟨3, ![32, 4096, 2048]⟩
abbrev S32x2048x4096 : Shape := ⟨3, ![32, 2048, 4096]⟩
abbrev S_ : Shape := ⟨0, ![]⟩
abbrev S2048 : Shape := ⟨1, ![2048]⟩
abbrev S32x4096 : Shape := ⟨2, ![32, 4096]⟩
abbrev S32x1x4096 : Shape := ⟨3, ![32, 1, 4096]⟩
abbrev S1x2048x1 : Shape := ⟨3, ![1, 2048, 1]⟩
abbrev S32x2048 : Shape := ⟨2, ![32, 2048]⟩

abbrev nBuf : Space → Nat
  | .hbm => 25
  | .vmem => 0
  | .smem => 0
  | _ => 0

abbrev bufTy : (tb : Table) → Fin (tcTables nBuf tb) → BufTy
  | .hbm, ⟨0, _⟩ => ⟨S32x4096x3, .f32⟩
  | .hbm, ⟨1, _⟩ => ⟨S2048x3, .f32⟩
  | .hbm, ⟨2, _⟩ => ⟨S32x4096x2048, .f32⟩
  | .hbm, ⟨3, _⟩ => ⟨S32x2048x4096, .f32⟩
  | .hbm, ⟨4, _⟩ => ⟨S2048x3, .f32⟩
  | .hbm, ⟨5, _⟩ => ⟨S_, .f32⟩
  | .hbm, ⟨6, _⟩ => ⟨S2048, .f32⟩
  | .hbm, ⟨7, _⟩ => ⟨S32x4096x3, .f32⟩
  | .hbm, ⟨8, _⟩ => ⟨S_, .f32⟩
  | .hbm, ⟨9, _⟩ => ⟨S32x4096, .f32⟩
  | .hbm, ⟨10, _⟩ => ⟨S32x1x4096, .f32⟩
  | .hbm, ⟨11, _⟩ => ⟨S_, .f32⟩
  | .hbm, ⟨12, _⟩ => ⟨S32x2048x4096, .f32⟩
  | .hbm, ⟨13, _⟩ => ⟨S32x2048x4096, .f32⟩
  | .hbm, ⟨14, _⟩ => ⟨S1x2048x1, .f32⟩
  | .hbm, ⟨15, _⟩ => ⟨S32x2048x4096, .f32⟩
  | .hbm, ⟨16, _⟩ => ⟨S32x2048x4096, .f32⟩
  | .hbm, ⟨17, _⟩ => ⟨S32x2048x4096, .f32⟩
  | .hbm, ⟨18, _⟩ => ⟨S32x2048x4096, .f32⟩
  | .hbm, ⟨19, _⟩ => ⟨S_, .f32⟩
  | .hbm, ⟨20, _⟩ => ⟨S32x2048x4096, .f32⟩
  | .hbm, ⟨21, _⟩ => ⟨S32x2048x4096, .f32⟩
  | .hbm, ⟨22, _⟩ => ⟨S32x2048x4096, .f32⟩
  | .hbm, ⟨23, _⟩ => ⟨S_, .f32⟩
  | .hbm, ⟨24, _⟩ => ⟨S32x2048, .f32⟩
  | _, _ => ⟨S32x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S32x4096x2048_S32x2048x4096_0_2_1 : S32x4096x2048.Transposes [0, 2, 1] S32x2048x4096
  reducesTo_S2048x3_S2048_d1 : S2048x3.ReducesTo [1] S2048
  h_S_ : 0 < S_.numel
  reducesTo_S32x4096x3_S32x4096_d2 : S32x4096x3.ReducesTo [2] S32x4096
  bcast_S32x4096_S32x1x4096_0_2 : S32x4096.BroadcastsInDim S32x1x4096 (![0, 2] : Fin 2 → Fin S32x1x4096.rank)
  bcast_S_S32x2048x4096 : S_.BroadcastsInDim S32x2048x4096 (![] : Fin 0 → Fin S32x2048x4096.rank)
  bcast_S2048_S1x2048x1_1 : S2048.BroadcastsInDim S1x2048x1 (![1] : Fin 1 → Fin S1x2048x1.rank)
  bcast_S1x2048x1_S32x2048x4096_0_1_2 : S1x2048x1.BroadcastsInDim S32x2048x4096 (![0, 1, 2] : Fin 3 → Fin S32x2048x4096.rank)
  bcast_S32x1x4096_S32x2048x4096_0_1_2 : S32x1x4096.BroadcastsInDim S32x2048x4096 (![0, 1, 2] : Fin 3 → Fin S32x2048x4096.rank)
  reducesTo_S32x2048x4096_S32x2048_d2 : S32x2048x4096.ReducesTo [2] S32x2048
  dot_S32x4096x3_S2048x3_S32x4096x2048_2_1_01_0_n_n_wf : DotDims.WF S32x4096x3 S2048x3 S32x4096x2048 [2] [1] [0, 1] [0] [] []

variable [Facts₀]

def dot_S32x4096x3_S2048x3_S32x4096x2048_2_1_01_0_n_n : DotDims S32x4096x3 S2048x3 S32x4096x2048 where
  lhsContracting := [2]
  rhsContracting := [1]
  lhsNonContracting := [0, 1]
  rhsNonContracting := [0]
  lhsBatch := []
  rhsBatch := []
  wf := dot_S32x4096x3_S2048x3_S32x4096x2048_2_1_01_0_n_n_wf

class Facts : Prop extends Facts₀ where

variable [Facts]
-- ==== Proof.AccumulatorStep.lean ====
/-
  What one grid step leaves in the accumulator, and in the output block.

  Every step computes, from its block x0 of points and its block x1 of evaluation points, the tile sum
  T(x0, x1) and stores  acc' = acc + T(x0, x1)  over the whole accumulator, where `acc` is what the accumulator
  held before: at the first step of a run of eight it is the zero block the step has just stored and read back,
  at the other steps it is what the step before left.  The last step of the run then copies the accumulator, whole,
  into the output block.  As terms: with `step x0 x1 acc` the store's value as a function of the loaded blocks,

      first step :  accumulator = step x0 x1 zero
      later steps:  accumulator = step x0 x1 (accumulator before)
      last step  :  output block = its accumulator.

  Each statement reads a list of covering whole-buffer stores back as the last store's value.
-/
import proofs.«159306_j4818953306928_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Step

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The value a step stores into the accumulator: the accumulator before plus the tile sum of the two blocks. -/
abbrev step (x0 : Vec F S8x512x3 .f32) (x1 : Vec F S512x3 .f32) (acc : Vec F S8x512 .f32) : Vec F S8x512 .f32 :=
  k0_pay1 (k0_pay3 x1) (k0_pay4 x0 x1) acc

/-- The zero block the first step of a run stores. -/
abbrev zero : Vec F S8x512 .f32 := k0_pay2

/-- A later step that is not the last: the accumulator ends at `step` of what it held. -/
theorem acc_middle (c : Dev nD) (i : grid0.Coords) (arg3 : Memref sig .tc .vmem S8x512x3 .f32) (harg3 : arg3.IsWhole) (arg4 : Memref sig .tc .vmem S512x3 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : ¬cond0_1 i)
    (x0 : Vec F S8x512x3 .f32) (x1 : Vec F S512x3 .f32) (xs0 : Vec F S8x512 .f32) :
    sout0_B_0 c i arg3 harg3 arg4 harg4 arg5 harg5 arg6 harg6 hc0 hc1 x0 x1 xs0 = step x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz2]
  simp only [View.readAt_eq_ld, harg3.read_unread, harg4.read_unread, harg6.read_unread,
    View.ld_unit_zero (S := S8x512x3) hz3, View.ld_unit_zero (S := S512x3) hz2, View.ld_unit_zero (S := S8x512) hz2]

/-- The first step of a run: the zero block is stored, read back, and the accumulator ends at `step` of it. -/
theorem acc_first (c : Dev nD) (i : grid0.Coords) (arg3 : Memref sig .tc .vmem S8x512x3 .f32) (harg3 : arg3.IsWhole) (arg4 : Memref sig .tc .vmem S512x3 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : ¬cond0_1 i)
    (x0 : Vec F S8x512x3 .f32) (x1 : Vec F S512x3 .f32) :
    sout0_A_0 c i arg3 harg3 arg4 harg4 arg5 harg5 arg6 harg6 hc0 hc1 x0 x1 = step x0 x1 zero := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S8x512) hz2, View.readCov_unit_zero (S := S8x512) _ hz2]
  simp only [View.readAt_eq_ld, harg3.read_unread, harg4.read_unread,
    View.ld_unit_zero (S := S8x512x3) hz3, View.ld_unit_zero (S := S512x3) hz2, View.ld_unit_zero (S := S8x512) hz2]

/-- The last step of a run: the accumulator ends at `step` of what it held … -/
theorem acc_last (c : Dev nD) (i : grid0.Coords) (arg3 : Memref sig .tc .vmem S8x512x3 .f32) (harg3 : arg3.IsWhole) (arg4 : Memref sig .tc .vmem S512x3 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i)
    (x0 : Vec F S8x512x3 .f32) (x1 : Vec F S512x3 .f32) (xs0 : Vec F S8x512 .f32) :
    sout0_C_0 c i arg3 harg3 arg4 harg4 arg5 harg5 arg6 harg6 hc0 hc1 x0 x1 xs0 = step x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz2]
  simp only [View.readAt_eq_ld, harg3.read_unread, harg4.read_unread, harg6.read_unread,
    View.ld_unit_zero (S := S8x512x3) hz3, View.ld_unit_zero (S := S512x3) hz2, View.ld_unit_zero (S := S8x512) hz2]

/-- … and the output block is that accumulator, copied whole. -/
theorem out_last (c : Dev nD) (i : grid0.Coords) (arg3 : Memref sig .tc .vmem S8x512x3 .f32) (harg3 : arg3.IsWhole) (arg4 : Memref sig .tc .vmem S512x3 .f32) (harg4 : arg4.IsWhole) (arg5 : Memref sig .tc .vmem S8x512 .f32) (harg5 : arg5.IsWhole) (arg6 : Memref sig .tc .vmem S8x512 .f32) (harg6 : arg6.IsWhole) (hc0 : ¬cond0_0 i) (hc1 : cond0_1 i)
    (x0 : Vec F S8x512x3 .f32) (x1 : Vec F S512x3 .f32) (xs0 : Vec F S8x512 .f32) :
    out0_C_2 c i arg3 harg3 arg4 harg4 arg5 harg5 arg6 harg6 hc0 hc1 x0 x1 xs0 = step x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz2, View.readCov_unit_zero (S := S8x512) _ hz2]
  simp only [View.readAt_eq_ld, harg3.read_unread, harg4.read_unread, harg6.read_unread,
    View.ld_unit_zero (S := S8x512x3) hz3, View.ld_unit_zero (S := S512x3) hz2, View.ld_unit_zero (S := S8x512) hz2]

end Cert.KernelIdeal.Step

end
-- ==== Proof.BlockLayout.lean ====
/-
  The re-arrangements the kernel makes of its blocks, read at an index.

  The kernel works on a three-axis box (b, k, n): b a batch of the points block, k an evaluation point of its block,
  n a point of the tile.  A quantity of (b, n) alone is viewed as (b, 1, n) and repeated along k; a quantity of k alone
  is viewed as (1, k, 1) and repeated along b and n.  Coordinate i of a block of vectors is cut out as a slice of
  width one on the last axis and that unit axis dropped.  Sums over the three coordinates, and over the n of a tile, are
  sums over the last (or only other) axis.  Each lemma says which element of the original array the re-arranged one
  reads; the proofs compare row-major positions, which a unit axis does not change.
-/
import proofs.«159306_j4818953306928_1_alg».proof.KernelIdeal
import Idealize.ShloMosaic.Lib.Pipeline.Value
import Idealize.ShloMosaic.Lib.ValueIdx
import Idealize.ShloMosaic.PureOps.Ideal.Laws

noncomputable section

open scoped BigOperators

namespace Cert.KernelIdeal.Layout

open Cert.KernelIdeal Idealize.ShloMosaic Idealize.ShloMosaic.ValueIdx

section Arrange
variable {α : Type}

/-- A quantity of (b, n), viewed as (b, 1, n) and repeated along k: at (b, k, n) it reads (b, n). -/
theorem spread_rows (v : S8x512.Idx → α) (h : S8x512.ShapeCasts S8x1x512) (h' : S8x1x512.Broadcasts S8x512x512)
    (b : Fin 8) (k : Fin 512) (n : Fin 512) :
    broadcastTo S8x512x512 (shapeCast S8x1x512 v h) h' (ix3 b k n) = v (ix2 b n) := by
  refine (broadcastTo_apply _ h' (ix3 b k n) (ix3 b (0 : Fin 1) n) (fun a => ?_)).trans ?_
  · match a with
    | ⟨0, _⟩ => show b.val = if (8 : Nat) = 1 then 0 else b.val; rw [if_neg (by decide)]
    | ⟨1, _⟩ => show 0 = if (1 : Nat) = 1 then 0 else k.val; rw [if_pos rfl]
    | ⟨2, _⟩ => show n.val = if (512 : Nat) = 1 then 0 else n.val; rw [if_neg (by decide)]
  · refine shapeCast_apply v h (ix3 b (0 : Fin 1) n) (ix2 b n) ?_
    rw [Shape.rowMajor_val_two, Shape.rowMajor_val_three]
    show b.val * 512 + n.val = (b.val * 1 + 0) * 512 + n.val
    omega

/-- A quantity of k, viewed as (1, k, 1) and repeated along b and n: at (b, k, n) it reads k. -/
theorem spread_col (v : S512.Idx → α) (h : S512.ShapeCasts S1x512x1) (h' : S1x512x1.Broadcasts S8x512x512)
    (b : Fin 8) (k : Fin 512) (n : Fin 512) :
    broadcastTo S8x512x512 (shapeCast S1x512x1 v h) h' (ix3 b k n) = v (ix1 k) := by
  refine (broadcastTo_apply _ h' (ix3 b k n) (ix3 (0 : Fin 1) k (0 : Fin 1)) (fun a => ?_)).trans ?_
  · match a with
    | ⟨0, _⟩ => show 0 = if (1 : Nat) = 1 then 0 else b.val; rw [if_pos rfl]
    | ⟨1, _⟩ => show k.val = if (512 : Nat) = 1 then 0 else k.val; rw [if_neg (by decide)]
    | ⟨2, _⟩ => show 0 = if (1 : Nat) = 1 then 0 else n.val; rw [if_pos rfl]
  · refine shapeCast_apply v h (ix3 (0 : Fin 1) k (0 : Fin 1)) (ix1 k) ?_
    rw [Shape.rowMajor_val_one, Shape.rowMajor_val_three]
    show k.val = (0 * 512 + k.val) * 1 + 0
    omega

/-- Coordinate i of the points block, cut out and its unit axis dropped: at (b, n) it reads (b, n, i). -/
theorem coord_pts (x : S8x512x3.Idx → α) (i : Nat) (hi : i < 3) (h : S8x512x3.Slices ![0, 0, i] S8x512x1)
    (h' : S8x512x1.ShapeCasts S8x512) (b : Fin 8) (n : Fin 512) :
    shapeCast S8x512 (extractStridedSlice S8x512x1 ![0, 0, i] x h) h' (ix2 b n) = x (ix3 b n ⟨i, hi⟩) := by
  refine (shapeCast_apply _ h' (ix2 b n) (ix3 b n (0 : Fin 1)) ?_).trans ?_
  · rw [Shape.rowMajor_val_three, Shape.rowMajor_val_two]
    show (b.val * 512 + n.val) * 1 + 0 = b.val * 512 + n.val
    omega
  · refine extractStridedSlice_apply _ x h (ix3 b n (0 : Fin 1)) (ix3 b n ⟨i, hi⟩) (fun a => ?_)
    match a with
    | ⟨0, _⟩ => show b.val = 0 + b.val; omega
    | ⟨1, _⟩ => show n.val = 0 + n.val; omega
    | ⟨2, _⟩ => show i = i + 0; omega

/-- Coordinate i of the evaluation block, cut out and its unit axis dropped: at k it reads (k, i). -/
theorem coord_eval (x : S512x3.Idx → α) (i : Nat) (hi : i < 3) (h : S512x3.Slices ![0, i] S512x1)
    (h' : S512x1.ShapeCasts S512) (k : Fin 512) :
    shapeCast S512 (extractStridedSlice S512x1 ![0, i] x h) h' (ix1 k) = x (ix2 k ⟨i, hi⟩) := by
  refine (shapeCast_apply _ h' (ix1 k) (ix2 k (0 : Fin 1)) ?_).trans ?_
  · rw [Shape.rowMajor_val_two, Shape.rowMajor_val_one]
    show k.val * 1 + 0 = k.val
    omega
  · refine extractStridedSlice_apply _ x h (ix2 k (0 : Fin 1)) (ix2 k ⟨i, hi⟩) (fun a => ?_)
    match a with
    | ⟨0, _⟩ => show k.val = 0 + k.val; omega
    | ⟨1, _⟩ => show i = i + 0; omega

/-- So coordinate i of the evaluation block, repeated along b and n, reads (k, i) at (b, k, n) … -/
theorem eval_coord_spread (x : S512x3.Idx → α) (i : Nat) (hi : i < 3) (h1 : S512x3.Slices ![0, i] S512x1)
    (h2 : S512x1.ShapeCasts S512) (h3 : S512.ShapeCasts S1x512x1) (h4 : S1x512x1.Broadcasts S8x512x512)
    (b : Fin 8) (k : Fin 512) (n : Fin 512) :
    broadcastTo S8x512x512 (shapeCast S1x512x1 (shapeCast S512 (extractStridedSlice S512x1 ![0, i] x h1) h2) h3) h4 (ix3 b k n)
      = x (ix2 k ⟨i, hi⟩) :=
  (spread_col _ h3 h4 b k n).trans (coord_eval x i hi h1 h2 k)

/-- … and coordinate i of the points block, repeated along k, reads (b, n, i). -/
theorem pts_coord_spread (x : S8x512x3.Idx → α) (i : Nat) (hi : i < 3) (h1 : S8x512x3.Slices ![0, 0, i] S8x512x1)
    (h2 : S8x512x1.ShapeCasts S8x512) (h3 : S8x512.ShapeCasts S8x1x512) (h4 : S8x1x512.Broadcasts S8x512x512)
    (b : Fin 8) (k : Fin 512) (n : Fin 512) :
    broadcastTo S8x512x512 (shapeCast S8x1x512 (shapeCast S8x512 (extractStridedSlice S8x512x1 ![0, 0, i] x h1) h2) h3) h4 (ix3 b k n)
      = x (ix3 b n ⟨i, hi⟩) :=
  (spread_rows _ h3 h4 b k n).trans (coord_pts x i hi h1 h2 b n)

end Arrange

/-! ## The three sums over one axis -/

/-- The sum over the three coordinates of a points-block quantity, at (b, n). -/
theorem sum_coords_pts (src : FVec Ideal S8x512x3 .f32) (h : S8x512x3.Reduces [2] S8x512) (hφ : FKind.Formats .f32)
    (hacc : (0x00000000#32 : BitVec 32) = FKind.add.neutral .f32 hφ) (b : Fin 8) (n : Fin 512) :
    multiReduction .add [2] S8x512 src 0x00000000#32 h hφ hacc (ix2 b n) = ∑ i : Fin 3, src (ix3 b n i) := by
  refine (Ideal.multiReduction_add_single src 0x00000000#32 h hφ hacc (ix2 b n)).trans ?_
  refine Finset.sum_congr rfl fun i _ => congrArg src ?_
  funext a; apply Fin.ext
  match a with
  | ⟨0, _⟩ => rfl
  | ⟨1, _⟩ => rfl
  | ⟨2, _⟩ => rfl

/-- The sum over the three coordinates of an evaluation-block quantity, at k. -/
theorem sum_coords_eval (src : FVec Ideal S512x3 .f32) (h : S512x3.Reduces [1] S512) (hφ : FKind.Formats .f32)
    (hacc : (0x00000000#32 : BitVec 32) = FKind.add.neutral .f32 hφ) (k : Fin 512) :
    multiReduction .add [1] S512 src 0x00000000#32 h hφ hacc (ix1 k) = ∑ i : Fin 3, src (ix2 k i) := by
  refine (Ideal.multiReduction_add_single src 0x00000000#32 h hφ hacc (ix1 k)).trans ?_
  refine Finset.sum_congr rfl fun i _ => congrArg src ?_
  funext a; apply Fin.ext
  match a with
  | ⟨0, _⟩ => rfl
  | ⟨1, _⟩ => rfl

/-- The sum over the 512 points of a tile of a quantity of the box, at (b, k). -/
theorem sum_tile (src : FVec Ideal S8x512x512 .f32) (h : S8x512x512.Reduces [2] S8x512) (hφ : FKind.Formats .f32)
    (hacc : (0x00000000#32 : BitVec 32) = FKind.add.neutral .f32 hφ) (b : Fin 8) (k : Fin 512) :
    multiReduction .add [2] S8x512 src 0x00000000#32 h hφ hacc (ix2 b k) = ∑ n : Fin 512, src (ix3 b k n) := by
  refine (Ideal.multiReduction_add_single src 0x00000000#32 h hφ hacc (ix2 b k)).trans ?_
  refine Finset.sum_congr rfl fun n _ => congrArg src ?_
  funext a; apply Fin.ext
  match a with
  | ⟨0, _⟩ => rfl
  | ⟨1, _⟩ => rfl
  | ⟨2, _⟩ => rfl

end Cert.KernelIdeal.Layout

end
-- ==== Proof.GaussSum.lean ====
/-
  The function both programs compute, over the extended reals, and the algebra that joins their two spellings.

  For points c(b, n) in R^3 (b < 32, n < 4096) and d(k) in R^3 (k < 2048) the result at (b, k) is

      sum over n of  exp (s * theta(b, k, n)),     theta(b, k, n) = |c(b,n)|^2 - (2 * <c(b,n), d(k)> - |d(k)|^2),

  the squared distance |d(k) - c(b,n)|^2 grouped the way the reference groups it.  The scale `s` and the factor
  `2` are float constants that both programs carry as the same words, so they stay opaque here: nothing below
  depends on which numbers they denote.

  The kernel groups the same quantity as (|c|^2 - 2 * <d, c>) + |d|^2, builds the inner product as three
  multiply-adds starting from zero, and sums n in eight tiles of 512.  Three facts bridge the two spellings:

  * `regroup`: (a - X) + m = a - (X - m) for real a, m and ANY extended real X.  On the extended reals this is
    false when a or m is infinite (infinity minus infinity), which is where finiteness of the inputs is used; X may
    be anything, because an infinite X swamps both sides the same way.
  * `fma3`: ((0 + g0 f0) + g1 f1) + g2 f2 is the sum over the three coordinates of f i * g i; this needs only
    that addition and multiplication of extended reals are commutative and associative.
  * `sum_tiles`: a sum over n < 4096 is the sum over eight tiles of the sums over the 512 positions of a tile.
-/
import Idealize.ShloMosaic.PureOps.Ideal
import Idealize.ShloMosaic.Lib.ValueIdx

noncomputable section

open scoped BigOperators

namespace Cert.GaussSum

open Idealize.ShloMosaic Idealize.ShloMosaic.ValueIdx

/-- The points c: 32 batches of 4096 points of R^3. -/
abbrev SPts : Shape := ⟨3, ![32, 4096, 3]⟩
/-- The evaluation points d: 2048 points of R^3. -/
abbrev SEval : Shape := ⟨2, ![2048, 3]⟩
/-- The result: one number per batch and evaluation point. -/
abbrev SRes : Shape := ⟨2, ![32, 2048]⟩

/-- The factor 2 and the scale, as the words both programs print. -/
def two : EReal := Ideal.ofBits .f32 0x40000000#32
def scale : EReal := Ideal.ofBits .f32 0xC0C90FDB#32

/-- |f|^2 for a vector of R^3 given by its coordinates. -/
def normSq (f : Fin 3 → EReal) : EReal := ∑ i : Fin 3, f i * f i
/-- <f, g> for two vectors of R^3. -/
def inner3 (f g : Fin 3 → EReal) : EReal := ∑ i : Fin 3, f i * g i

/-- The summand: exp (s * (|f|^2 - (2 <f, g> - |g|^2))). -/
def gauss (f g : Fin 3 → EReal) : EReal :=
  Ideal.exp (scale * (normSq f - (two * inner3 f g - normSq g)))

/-- Point n of batch b, and evaluation point k, by coordinates. -/
def pt (C : SPts.Idx → EReal) (b : Fin 32) (n : Fin 4096) : Fin 3 → EReal := fun i => C (ix3 b n i)
def ev (D : SEval.Idx → EReal) (k : Fin 2048) : Fin 3 → EReal := fun i => D (ix2 k i)

/-- THE RESULT: at (b, k), the sum over the 4096 points of the batch of the Gaussian of the distance to d(k). -/
def G (C : SPts.Idx → EReal) (D : SEval.Idx → EReal) : SRes.Idx → EReal :=
  fun j => ∑ n : Fin 4096, gauss (pt C (j 0) n) (ev D (j 1))

/-! ## The algebra -/

/-- (a - X) + m = a - (X - m) for real a and m, whatever extended real X is. -/
theorem regroup (a m : ℝ) (X : EReal) : ((a : EReal) - X) + (m : EReal) = (a : EReal) - (X - (m : EReal)) := by
  induction X using EReal.rec with
  | bot => simp
  | top => simp
  | coe x =>
    rw [← EReal.coe_sub, ← EReal.coe_add, ← EReal.coe_sub, ← EReal.coe_sub]
    exact congrArg _ (by ring)

/-- Three multiply-adds from zero are the inner product (the factors in the other order). -/
theorem fma3 (f g : Fin 3 → EReal) :
    ((0 + g 0 * f 0) + g 1 * f 1) + g 2 * f 2 = inner3 f g := by
  unfold inner3
  rw [Fin.sum_univ_three, zero_add, mul_comm (g 0), mul_comm (g 1), mul_comm (g 2)]

/-- The squared norm of a vector with real coordinates is a real. -/
theorem normSq_real (f : Fin 3 → EReal) (hf : ∀ i, ∃ r : ℝ, f i = (r : EReal)) : ∃ a : ℝ, normSq f = (a : EReal) := by
  choose r hr using hf
  refine ⟨r 0 * r 0 + r 1 * r 1 + r 2 * r 2, ?_⟩
  unfold normSq
  rw [Fin.sum_univ_three, hr 0, hr 1, hr 2]
  simp only [EReal.coe_add, EReal.coe_mul]

/-- The summand as the kernel groups it: exp (s * ((|f|^2 - 2 * (three multiply-adds from zero)) + |g|^2)). -/
def gaussFma (f g : Fin 3 → EReal) : EReal :=
  Ideal.exp (scale * ((normSq f - two * (((0 + g 0 * f 0) + g 1 * f 1) + g 2 * f 2)) + normSq g))

/-- THE KERNEL'S SUMMAND IS THE REFERENCE'S, for vectors with real coordinates: the kernel's grouping
    (|f|^2 - 2 * (three multiply-adds)) + |g|^2 against the reference's |f|^2 - (2 <f, g> - |g|^2). -/
theorem gaussFma_eq (f g : Fin 3 → EReal) (hf : ∀ i, ∃ r : ℝ, f i = (r : EReal))
    (hg : ∀ i, ∃ r : ℝ, g i = (r : EReal)) : gaussFma f g = gauss f g := by
  obtain ⟨a, ha⟩ := normSq_real f hf
  obtain ⟨b, hb⟩ := normSq_real g hg
  unfold gaussFma gauss
  rw [fma3 f g, ha, hb, regroup]

/-- A sum over n < 4096 in eight tiles of 512. -/
theorem sum_tiles {M : Type*} [AddCommMonoid M] (f : Fin 4096 → M) :
    ∑ n : Fin 4096, f n = ∑ s : Fin 8, ∑ j : Fin 512, f ⟨512 * s.val + j.val, by have := s.isLt; have := j.isLt; omega⟩ := by
  rw [← Fintype.sum_prod_type']
  refine (Fintype.sum_equiv (finProdFinEquiv (m := 8) (n := 512)) _ _ fun p => ?_).symm
  refine congrArg f (Fin.ext ?_)
  show 512 * p.1.val + p.2.val = p.2.val + 512 * p.1.val
  omega

end Cert.GaussSum

end
-- ==== Proof.TileSum.lean ====
/-
  One step of the kernel, read at an entry (b, k) of the accumulator.

  The value a step stores is  acc(b, k) + sum over the 512 points n of the tile of
      exp (s * ((|c(b,n)|^2 - 2 * (((0 + d0 c0) + d1 c1) + d2 c2)) + |d(k)|^2)),
  with c(b, n) the point's three coordinates in the points block and d(k) those of the evaluation point in its block:
  the two squared norms are sums over the three coordinates, the inner product is built coordinate by coordinate from
  zero by multiply-adds of the coordinate slices spread over the (b, k, n) box, and the whole is summed along n.
  That summand is `gaussFma` of the two coordinate vectors.
-/
import proofs.«159306_j4818953306928_1_alg».proof.Proof.Gen.KernelIdeal.Skeleton
import proofs.«159306_j4818953306928_1_alg».proof.Proof.AccumulatorStep
import proofs.«159306_j4818953306928_1_alg».proof.Proof.BlockLayout
import proofs.«159306_j4818953306928_1_alg».proof.Proof.GaussSum

set_option maxRecDepth 16384

noncomputable section

open scoped BigOperators

namespace Cert.KernelIdeal.TileSum

open Cert.KernelIdeal Cert.KernelIdeal.Gen Cert.KernelIdeal.Layout Cert.KernelIdeal.Step Cert.GaussSum
open Idealize.ShloMosaic Idealize.ShloMosaic.ValueIdx

/-- |d(k)|^2: the evaluation block's squares summed over the three coordinates. -/
theorem evalNorm_apply (x1 : FVec Ideal S512x3 .f32) (k : Fin 512) :
    k0_pay3 (F := Ideal) x1 (ix1 k) = normSq (fun i => x1 (ix2 k i)) :=
  sum_coords_eval (mulf x1 x1) _ (.inl rfl) rfl k

/-- |c(b,n)|^2 - 2 * (the three multiply-adds from zero), at (b, k, n). -/
theorem dist_apply (x0 : FVec Ideal S8x512x3 .f32) (x1 : FVec Ideal S512x3 .f32) (b : Fin 8) (k n : Fin 512) :
    k0_pay4 (F := Ideal) x0 x1 (ix3 b k n)
      = normSq (fun i => x0 (ix3 b n i))
        - two * (((0 + x1 (ix2 k 0) * x0 (ix3 b n 0)) + x1 (ix2 k 1) * x0 (ix3 b n 1)) + x1 (ix2 k 2) * x0 (ix3 b n 2)) := by
  unfold k0_pay4
  dsimp only
  simp only [subf_apply, mulf_apply, addf_apply, broadcast_apply, spread_rows,
    eval_coord_spread x1 0 (by decide), eval_coord_spread x1 1 (by decide), eval_coord_spread x1 2 (by decide),
    pts_coord_spread x0 0 (by decide), pts_coord_spread x0 1 (by decide), pts_coord_spread x0 2 (by decide)]
  refine congrArg₂ (· - ·) (sum_coords_pts (mulf x0 x0) _ (.inl rfl) rfl b n) ?_
  show Ideal.ofBits .f32 0x40000000#32 * (Ideal.ofBits .f32 0x00000000#32 + x1 (ix2 k 0) * x0 (ix3 b n 0)
    + x1 (ix2 k 1) * x0 (ix3 b n 1) + x1 (ix2 k 2) * x0 (ix3 b n 2)) = _
  rw [Ideal.ofBits_zero_f32]
  rfl

/-- THE STEP at (b, k): the accumulator there plus the tile's sum of the kernel's summand. -/
theorem step_apply (x0 : FVec Ideal S8x512x3 .f32) (x1 : FVec Ideal S512x3 .f32) (acc : FVec Ideal S8x512 .f32)
    (b : Fin 8) (k : Fin 512) :
    step (F := Ideal) x0 x1 acc (ix2 b k)
      = acc (ix2 b k) + ∑ n : Fin 512, gaussFma (fun i => x0 (ix3 b n i)) (fun i => x1 (ix2 k i)) := by
  show k0_pay1 (F := Ideal) (k0_pay3 x1) (k0_pay4 x0 x1) acc (ix2 b k) = _
  unfold k0_pay1
  dsimp only
  simp only [shapeCast_self, addf_apply]
  refine congrArg (acc (ix2 b k) + ·) ?_
  refine (sum_tile _ _ (.inl rfl) rfl b k).trans ?_
  refine Finset.sum_congr rfl fun n _ => ?_
  show Ideal.exp (Ideal.ofBits .f32 0xC0C90FDB#32 * (k0_pay4 (F := Ideal) x0 x1 (ix3 b k n)
    + broadcastTo S8x512x512 (shapeCast S1x512x1 (k0_pay3 (F := Ideal) x1) _) _ (ix3 b k n))) = _
  rw [spread_col, evalNorm_apply, dist_apply]
  rfl

/-- The zero block reads zero everywhere. -/
theorem zero_apply (j : S8x512.Idx) : zero (F := Ideal) j = 0 := by
  show k0_pay2 (F := Ideal) j = 0
  unfold k0_pay2
  rw [shapeCast_self]
  exact Ideal.ofBits_zero_f32

end Cert.KernelIdeal.TileSum

end
-- ==== Proof.KernelIsGaussSum.lean ====
/-
  The kernel's result array is the Gaussian sum G of its two argument arrays.

  The grid has 4 x 4 x 8 points; point t has coordinates (t / 32, t / 8 mod 4, t mod 8) = (batch tile, evaluation tile,
  point tile).  At point t the kernel sees rows 8 (t/32) .. + 8 of the points array restricted to points
  512 (t mod 8) .. + 512, and rows 512 (t/8 mod 4) .. + 512 of the evaluation array.  The eight points of a run
  8 q .. 8 q + 7 share their batch tile and evaluation tile and walk through the eight point tiles; each adds its tile
  sum to the accumulator, the first starting from zero, and the last writes the accumulator back as block
  (t / 32, t / 8 mod 4) of the result.  So an entry (8 (t/32) + b, 512 (t/8 mod 4) + k) of the result is
      sum over the eight tiles s of the sum over the 512 positions j of the tile of the summand at point 512 s + j,
  which is the sum over all 4096 points.  The summand is the kernel's grouping; the inputs being real, it is the
  reference's (GaussSum).  Every entry of the result lies in exactly one written-back block, so the array is G.
-/
import proofs.«159306_j4818953306928_1_alg».proof.Proof.Gen.KernelIdeal.Value
import proofs.«159306_j4818953306928_1_alg».proof.Proof.AccumulatorStep
import proofs.«159306_j4818953306928_1_alg».proof.Proof.TileSum
import proofs.«159306_j4818953306928_1_alg».proof.Proof.GaussSum

set_option maxRecDepth 16384

noncomputable section

open scoped BigOperators

namespace Cert.KernelIdeal.GaussValue

open Cert.KernelIdeal Cert.KernelIdeal.Gen Cert.KernelIdeal.Value Cert.KernelIdeal.Step Cert.KernelIdeal.TileSum Cert.GaussSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two argument arrays as the kernel finds them, and the two blocks point t sees. -/
abbrev ptsArr (c : Dev nD) : FVec Ideal S32x4096x3 .f32 := V m c main_arg0
abbrev evArr (c : Dev nD) : FVec Ideal S2048x3 .f32 := V m c main_arg1
abbrev ptsBlk (c : Dev nD) (t : Fin cfg0.N) : FVec Ideal S8x512x3 .f32 := iblk m c 0 t
abbrev evBlk (c : Dev nD) (t : Fin cfg0.N) : FVec Ideal S512x3 .f32 := iblk m c 1 t

/-- The block indices of the three windows at point t, decided over the grid. -/
theorem idx_facts : ∀ t : Fin cfg0.N,
    win0_0.index t (0 : Fin 3) = t.val / 32 ∧ win0_0.index t (1 : Fin 3) = t.val % 8 ∧ win0_0.index t (2 : Fin 3) = 0
    ∧ win0_1.index t (0 : Fin 2) = t.val / 8 % 4 ∧ win0_1.index t (1 : Fin 2) = 0
    ∧ win0_2.index t (0 : Fin 2) = t.val / 32 ∧ win0_2.index t (1 : Fin 2) = t.val / 8 % 4 :=
  (by decide +kernel : ∀ t : Fin grid0.N, _)

/-- The points block at point t: batch row 8 (t/32) + b, point 512 (t mod 8) + n. -/
theorem ptsBlk_apply (c : Dev nD) (t : Fin cfg0.N) (b : Fin 8) (n : Fin 512) (i : Fin 3) :
    ptsBlk m c t (ix3 b n i)
      = ptsArr m c (ix3 (⟨8 * (t.val / 32) + b.val, by have := t.isLt; have hN : cfg0.N = 128 := N_0; have := b.isLt; omega⟩ : Fin 32)
          (⟨512 * (t.val % 8) + n.val, by have := n.isLt; omega⟩ : Fin 4096) i) := by
  obtain ⟨e0, e1, e2, -⟩ := idx_facts t
  show iblk m c 0 t (ix3 b n i) = _
  unfold iblk
  rw [View.read_apply]
  show V m c main_arg0 _ = V m c main_arg0 _
  refine congrArg _ (funext fun a => Fin.ext ?_)
  match a with
  | ⟨0, _⟩ => show win0_0.index t (0 : Fin 3) * 8 + 1 * b.val = 8 * (t.val / 32) + b.val; rw [e0]; omega
  | ⟨1, _⟩ => show win0_0.index t (1 : Fin 3) * 512 + 1 * n.val = 512 * (t.val % 8) + n.val; rw [e1]; omega
  | ⟨2, _⟩ => show win0_0.index t (2 : Fin 3) * 3 + 1 * i.val = i.val; rw [e2]; omega

/-- The evaluation block at point t: evaluation point 512 (t/8 mod 4) + k. -/
theorem evBlk_apply (c : Dev nD) (t : Fin cfg0.N) (k : Fin 512) (i : Fin 3) :
    evBlk m c t (ix2 k i)
      = evArr m c (ix2 (⟨512 * (t.val / 8 % 4) + k.val, by have := k.isLt; omega⟩ : Fin 2048) i) := by
  obtain ⟨-, -, -, e0, e1, -⟩ := idx_facts t
  show iblk m c 1 t (ix2 k i) = _
  unfold iblk
  rw [View.read_apply]
  show V m c main_arg1 _ = V m c main_arg1 _
  refine congrArg _ (funext fun a => Fin.ext ?_)
  match a with
  | ⟨0, _⟩ => show win0_1.index t (0 : Fin 2) * 512 + 1 * k.val = 512 * (t.val / 8 % 4) + k.val; rw [e0]; omega
  | ⟨1, _⟩ => show win0_1.index t (1 : Fin 2) * 3 + 1 * i.val = i.val; rw [e1]; omega

/-! ## The accumulator over a run of eight points -/

/-- The tile sum of point t: at (b, k) the sum over the tile's 512 points of the kernel's summand. -/
def tile (c : Dev nD) (t : Fin cfg0.N) : S8x512.Idx → EReal :=
  fun j => ∑ n : Fin 512, gaussFma (fun i => ptsBlk m c t (ix3 (j 0) n i)) (fun i => evBlk m c t (ix2 (j 1) i))

/-- The same by the point's number, zero past the grid (where it is never used). -/
def tileN (c : Dev nD) (n : ℕ) : S8x512.Idx → EReal := if h : n < cfg0.N then tile m c ⟨n, h⟩ else fun _ => 0

theorem tileN_of_lt (c : Dev nD) (n : ℕ) (h : n < cfg0.N) : tileN m c n = tile m c ⟨n, h⟩ := dif_pos h

/-- A step adds the point's tile sum to the accumulator. -/
theorem step_eq_add_tile (c : Dev nD) (t : Fin cfg0.N) (acc : FVec Ideal S8x512 .f32) (j : S8x512.Idx) :
    step (F := Ideal) (ptsBlk m c t) (evBlk m c t) acc j = acc j + tile m c t j := by
  obtain ⟨b, k, rfl⟩ : ∃ (b : Fin 8) (k : Fin 512), j = ix2 b k := ⟨j 0, j 1, eq_ix2 j⟩
  exact step_apply (ptsBlk m c t) (evBlk m c t) acc b k

/-- At the first point of a run the accumulator ends at zero plus the point's tile sum, whatever it held. -/
theorem acc_at_first (c : Dev nD) (n : ℕ) (hb : n < cfg0.N) (h0 : n % 8 = 0) (acc : Vec Ideal S8x512 .f32) (j : S8x512.Idx) :
    scAt0_0 m c n hb acc j = 0 + tile m c ⟨n, hb⟩ j := by
  have h1 : ¬ n % 8 = 7 := by omega
  unfold scAt0_0
  rw [dif_pos h0, dif_neg h1]
  refine (congrFun (acc_first (F := Ideal) c (grid0.coords ⟨n, hb⟩) (ms0_0 ⟨n, hb⟩) (hs0_0 ⟨n, hb⟩) (ms0_1 ⟨n, hb⟩) (hs0_1 ⟨n, hb⟩)
    (ms0_2 ⟨n, hb⟩) (hs0_2 ⟨n, hb⟩) scM0_0 (Memref.isWhole_whole _) ((hcond0_0 ⟨n, hb⟩).mpr h0) (fun h => h1 ((hcond0_1 ⟨n, hb⟩).mp h))
    (iblk m c 0 ⟨n, hb⟩) (iblk m c 1 ⟨n, hb⟩)) j).trans ?_
  refine (step_eq_add_tile m c ⟨n, hb⟩ (zero (F := Ideal)) j).trans ?_
  rw [zero_apply]

/-- At every later point of a run the accumulator ends at what it held plus the point's tile sum. -/
theorem acc_at_later (c : Dev nD) (n : ℕ) (hb : n < cfg0.N) (h0 : ¬ n % 8 = 0) (acc : Vec Ideal S8x512 .f32) (j : S8x512.Idx) :
    scAt0_0 m c n hb acc j = acc j + tile m c ⟨n, hb⟩ j := by
  unfold scAt0_0
  rw [dif_neg h0]
  by_cases h1 : n % 8 = 7
  · rw [dif_pos h1]
    exact (congrFun (acc_last (F := Ideal) c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) scM0_0 (Memref.isWhole_whole _) (fun h => h0 ((hcond0_0 ⟨n, hb⟩).mp h)) ((hcond0_1 ⟨n, hb⟩).mpr h1)
      (iblk m c 0 ⟨n, hb⟩) (iblk m c 1 ⟨n, hb⟩) acc) j).trans (step_eq_add_tile m c ⟨n, hb⟩ acc j)
  · rw [dif_neg h1]
    exact (congrFun (acc_middle (F := Ideal) c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) scM0_0 (Memref.isWhole_whole _) (fun h => h0 ((hcond0_0 ⟨n, hb⟩).mp h)) (fun h => h1 ((hcond0_1 ⟨n, hb⟩).mp h))
      (iblk m c 0 ⟨n, hb⟩) (iblk m c 1 ⟨n, hb⟩) acc) j).trans (step_eq_add_tile m c ⟨n, hb⟩ acc j)

/-- THE ACCUMULATOR after point t: the sum of the tile sums of its run's points up to t. -/
theorem acc_eq (c : Dev nD) (t : Fin cfg0.N) (j : S8x512.Idx) :
    (outsAt0 m c t.val t.isLt).2 j = 0 + ∑ s ∈ Finset.range (t.val % 8 + 1), tileN m c (8 * (t.val / 8) + s) j := by
  rw [soutsAt0_0_eq m c t]
  exact Pipeline.accAt_add_apply (N := cfg0.N) _ _ (fun _ => (0 : EReal)) (tileN m c) (8 * (t.val / 8)) 7
    (fun h i => (acc_at_first m c _ h (Nat.mul_mod_right 8 _) _ i).trans (by rw [tileN_of_lt m c _ h]))
    (fun n h acc i hlo hhi => (acc_at_later m c n h (by omega) acc i).trans (by rw [tileN_of_lt m c n h]))
    (t.val % 8) (by omega) _ j

/-- After the last point of a run: the sum of all eight tile sums. -/
theorem acc_run (c : Dev nD) (t : Fin cfg0.N) (h7 : t.val % 8 = 7) (j : S8x512.Idx) :
    (outsAt0 m c t.val t.isLt).2 j = ∑ s : Fin 8, tileN m c (8 * (t.val / 8) + s.val) j := by
  rw [acc_eq m c t j, h7, zero_add]
  exact Finset.sum_range _

/-- At the last point of a run the output block is the accumulator. -/
theorem out_eq_acc (c : Dev nD) (t : Fin cfg0.N) (h7 : t.val % 8 = 7) :
    (outsAt0 m c t.val t.isLt).1 = (outsAt0 m c t.val t.isLt).2 := by
  have h0 : ¬ t.val % 8 = 0 := by omega
  rw [outsAt0_C m c t h0 h7]
  dsimp only
  exact (out_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h7) (iblk m c 0 t) (iblk m c 1 t)
      (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h7) (iblk m c 0 t) (iblk m c 1 t)
      (outsAt0 m c (t.val - 1) (Nat.lt_of_le_of_lt (Nat.sub_le _ _) t.isLt)).2).symm

/-! ## What is written back, and the whole array -/

/-- WHAT A WRITING POINT WRITES BACK is its block of G of the argument arrays, when their entries are real. -/
theorem flushed_eq (c : Dev nD) (hC : ∀ x, ∃ r : ℝ, ptsArr m c x = (r : EReal)) (hD : ∀ x, ∃ r : ℝ, evArr m c x = (r : EReal))
    (t : Fin cfg0.N) (hf : (cfg0.win 2).flush t = true) :
    (dats m 0 c).flushed 2 t = ((cfg0.win 2).blk t).view.read (Elt Ideal) (G (ptsArr m c) (evArr m c)) := by
  have h7 : t.val % 8 = 7 := (flush0_2 t).mp hf
  have hN : cfg0.N = 128 := N_0
  have ht : t.val < cfg0.N := t.isLt
  rw [flushed2]
  funext j
  show (outsAt0 m c t.val t.isLt).1 j = G (ptsArr m c) (evArr m c) (((cfg0.win 2).blk t).view.emb j)
  obtain ⟨b, k, rfl⟩ : ∃ (b : Fin 8) (k : Fin 512), j = ix2 b k := ⟨j 0, j 1, eq_ix2 j⟩
  have hb : b.val < 8 := b.isLt
  have hk : k.val < 512 := k.isLt
  rw [out_eq_acc m c t h7, acc_run m c t h7 (ix2 b k)]
  obtain ⟨-, -, -, -, -, e0, e1⟩ := idx_facts t
  -- the array index under block index (b, k)
  have hemb : ((cfg0.win 2).blk t).view.emb (ix2 b k)
      = ix2 (⟨8 * (t.val / 32) + b.val, by omega⟩ : Fin 32) (⟨512 * (t.val / 8 % 4) + k.val, by omega⟩ : Fin 2048) := by
    funext a; apply Fin.ext
    match a with
    | ⟨0, _⟩ => show win0_2.index t (0 : Fin 2) * 8 + 1 * b.val = 8 * (t.val / 32) + b.val; rw [e0]; omega
    | ⟨1, _⟩ => show win0_2.index t (1 : Fin 2) * 512 + 1 * k.val = 512 * (t.val / 8 % 4) + k.val; rw [e1]; omega
  rw [hemb]
  show _ = ∑ n : Fin 4096, gauss (pt (ptsArr m c) (⟨8 * (t.val / 32) + b.val, by omega⟩ : Fin 32) n)
    (ev (evArr m c) (⟨512 * (t.val / 8 % 4) + k.val, by omega⟩ : Fin 2048))
  rw [sum_tiles]
  refine Finset.sum_congr rfl fun s _ => ?_
  have hs : s.val < 8 := s.isLt
  have hlt : 8 * (t.val / 8) + s.val < cfg0.N := by omega
  rw [tileN_of_lt m c _ hlt]
  show ∑ n : Fin 512, gaussFma (fun i => ptsBlk m c ⟨8 * (t.val / 8) + s.val, hlt⟩ (ix3 b n i))
      (fun i => evBlk m c ⟨8 * (t.val / 8) + s.val, hlt⟩ (ix2 k i)) = _
  refine Finset.sum_congr rfl fun n _ => ?_
  have hn : n.val < 512 := n.isLt
  have eP : (fun i => ptsBlk m c ⟨8 * (t.val / 8) + s.val, hlt⟩ (ix3 b n i))
      = pt (ptsArr m c) (⟨8 * (t.val / 32) + b.val, by omega⟩ : Fin 32) (⟨512 * s.val + n.val, by omega⟩ : Fin 4096) := by
    funext i
    rw [ptsBlk_apply]
    show ptsArr m c _ = ptsArr m c _
    refine congrArg _ (funext fun a => Fin.ext ?_)
    match a with
    | ⟨0, _⟩ => show 8 * ((8 * (t.val / 8) + s.val) / 32) + b.val = 8 * (t.val / 32) + b.val; omega
    | ⟨1, _⟩ => show 512 * ((8 * (t.val / 8) + s.val) % 8) + n.val = 512 * s.val + n.val; omega
    | ⟨2, _⟩ => rfl
  have eE : (fun i => evBlk m c ⟨8 * (t.val / 8) + s.val, hlt⟩ (ix2 k i))
      = ev (evArr m c) (⟨512 * (t.val / 8 % 4) + k.val, by omega⟩ : Fin 2048) := by
    funext i
    rw [evBlk_apply]
    show evArr m c _ = evArr m c _
    refine congrArg _ (funext fun a => Fin.ext ?_)
    match a with
    | ⟨0, _⟩ => show 512 * ((8 * (t.val / 8) + s.val) / 8 % 4) + k.val = 512 * (t.val / 8 % 4) + k.val; omega
    | ⟨1, _⟩ => rfl
  rw [eP, eE]
  exact gaussFma_eq _ _ (fun i => hC _) (fun i => hD _)

/-- An index of the result is in point t's block iff each coordinate is in the block's range on its axis. -/
theorem mem_blk (t : Fin cfg0.N) (i : S32x2048.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0).slice (win0_2.rect t)).set ↔ _
  rw [View.set_slice_whole, Rect.mem_set_unit]
  exact Iff.rfl

/-- Every entry (r, q) of the result is in the block written back by the last point of the run of batch tile r / 8
    and evaluation tile q / 512. -/
theorem cover (i : S32x2048.Idx) : ∃ t : Fin cfg0.N, (cfg0.win 2).flush t = true ∧ i ∈ ((cfg0.win 2).blk t).view.set := by
  have hN : cfg0.N = 128 := N_0
  have h0 : (i 0).val < 32 := (i 0).isLt
  have h1 : (i 1).val < 2048 := (i 1).isLt
  obtain ⟨t, tv⟩ : ∃ t : Fin cfg0.N, t.val = 32 * ((i 0).val / 8) + 8 * ((i 1).val / 512) + 7 := ⟨⟨_, by omega⟩, rfl⟩
  refine ⟨t, (flush0_2 t).mpr (by omega), ?_⟩
  obtain ⟨-, -, -, -, -, e0, e1⟩ := idx_facts t
  rw [mem_blk]
  intro a
  match a with
  | ⟨0, _⟩ => show win0_2.index t (0 : Fin 2) * 8 ≤ (i 0).val ∧ (i 0).val < win0_2.index t (0 : Fin 2) * 8 + 8; rw [e0]; omega
  | ⟨1, _⟩ => show win0_2.index t (1 : Fin 2) * 512 ≤ (i 1).val ∧ (i 1).val < win0_2.index t (1 : Fin 2) * 512 + 512; rw [e1]; omega

/-- THE RESULT ARRAY after the run is G of the argument arrays. -/
theorem final (c : Dev nD) (hC : ∀ x, ∃ r : ℝ, ptsArr m c x = (r : EReal)) (hD : ∀ x, ∃ r : ℝ, evArr m c x = (r : EReal)) :
    (dats m 0 c).arrAt 2 cfg0.N = G (ptsArr m c) (evArr m c) :=
  (dats m 0 c).arrAt_eq_of_cover 2 _ (fun t hf => flushed_eq m c hC hD t hf) cover

/-- The kernel's run, read: the result at G of the arguments, the arguments unchanged. -/
theorem run (hfin : ∀ c : Dev nD, (∀ x, ∃ r : ℝ, ptsArr m c x = (r : EReal)) ∧ (∀ x, ∃ r : ℝ, evArr m c x = (r : EReal))) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c).1 (hfin c).2), (h c).2⟩) (run_blocks m ρ)

end Cert.KernelIdeal.GaussValue

end
-- ==== Proof.RefIsGaussSum.lean ====
/-
  The reference computes the Gaussian sum G.

  Its operations, read at a result index (b, k) and a summation position n: the inner product of point c(b, n) with
  d(k) comes from the matrix product (transposed so that n is last), the two squared norms from sums over the three
  coordinates (each started from the constant zero), and the exponent is s * (|c|^2 - (2 <c, d> - |d|^2)), which is
  the summand of G as it stands.  The outer sum over n also starts from zero.  So nothing but 0 + x = x is used.
-/
import proofs.«159306_j4818953306928_1_alg».proof.Proof.Gen.ReferenceIdeal.Read
import proofs.«159306_j4818953306928_1_alg».proof.Proof.GaussSum

noncomputable section

open scoped BigOperators

namespace Cert.ReferenceIdeal.RefValue

open Cert.ReferenceIdeal Cert.ReferenceIdeal.Read Cert.GaussSum
open Idealize.ShloMosaic Idealize.ShloMosaic.ValueIdx

/-- The reference's last stage, as a function of its two arguments, is G. -/
theorem stage_eq_G (x0 : (⟨S32x4096x3, .f32⟩ : BufTy).Contents (Elt Ideal)) (x1 : (⟨S2048x3, .f32⟩ : BufTy).Contents (Elt Ideal)) :
    val_main_v17 (F := Ideal) x0 x1 = G x0 x1 := by
  funext j
  obtain ⟨b, k, rfl⟩ : ∃ (b : Fin 32) (k : Fin 2048), j = ix2 b k := ⟨j 0, j 1, eq_ix2 j⟩
  rw [val_main_v17_apply, val_main_cst_3_apply]
  show Ideal.ofBits .f32 0x00000000#32 + _ = ∑ n : Fin 4096, gauss (pt x0 b n) (ev x1 k)
  rw [Ideal.ofBits_zero_f32, zero_add]
  refine Finset.sum_congr rfl fun n _ => ?_
  -- where each stage reads its operand, at result index (b, k) and position n
  have eC : ∀ i : Fin 3, idx_main_v5 (idx_main_v6 (idx_main_v12 (idx_main_v17 (ix2 b k) n))) i = ix3 b n i :=
    fun i => funext fun a => Fin.ext (by match a with | ⟨0, _⟩ => rfl | ⟨1, _⟩ => rfl | ⟨2, _⟩ => rfl)
  have eL : ∀ i : Fin 3, lidx_main_v0 (idx_main_v1 (idx_main_v17 (ix2 b k) n)) i = ix3 b n i :=
    fun i => funext fun a => Fin.ext (by match a with | ⟨0, _⟩ => rfl | ⟨1, _⟩ => rfl | ⟨2, _⟩ => rfl)
  have eR : ∀ i : Fin 3, ridx_main_v0 (idx_main_v1 (idx_main_v17 (ix2 b k) n)) i = ix2 k i :=
    fun i => funext fun a => Fin.ext (by match a with | ⟨0, _⟩ => rfl | ⟨1, _⟩ => rfl)
  have eD : ∀ i : Fin 3, idx_main_v3 (idx_main_v9 (idx_main_v10 (idx_main_v17 (ix2 b k) n))) i = ix2 k i :=
    fun i => funext fun a => Fin.ext (by match a with | ⟨0, _⟩ => rfl | ⟨1, _⟩ => rfl)
  rw [val_main_v16_apply, val_main_v15_apply, val_main_v14_apply, val_main_cst_2_apply, val_main_v13_apply,
    val_main_v12_apply, val_main_v6_apply, val_main_v5_apply, val_main_cst_0_apply, val_main_v11_apply,
    val_main_v8_apply, val_main_v7_apply, val_main_cst_1_apply, val_main_v1_apply, val_main_v0_apply,
    val_main_v10_apply, val_main_v9_apply, val_main_v3_apply, val_main_cst_apply]
  simp only [val_main_v4_apply, val_main_v2_apply, eC, eL, eR, eD, Ideal.hostUnary_exp_def, Ideal.mulf_def,
    Ideal.subf_def, Ideal.ofBits_def, Ideal.ofBits_zero_f32, zero_add]
  rfl

end Cert.ReferenceIdeal.RefValue

end
-- ==== Proof.FiniteInputs.lean ====
/-
  What the precondition says: every entry of both input arrays is a real number.

  The precondition is the conjunction of two tests, one per input: the conjunction over all entries x of
  |x| < +infinity.  Over the extended reals |x| = max x (-x), and the float pattern of +infinity denotes the top
  element, so the test at an entry fails exactly at the two infinities; an entry that passes is a real.
-/
import proofs.«159306_j4818953306928_1_alg».proof.Pre_finite_inputs
import Idealize.ShloMosaic.PureOps.Ideal
import Idealize.ShloMosaic.Lib.ValueIdx
import Idealize.ShloMosaic.Lib.ReduceAll

noncomputable section

namespace Cert.Pre_finite_inputs.Finite

open Cert.Pre_finite_inputs Idealize.ShloMosaic

variable [Facts]

/-- The scalar shape has one index. -/
instance : Subsingleton S_.Idx := ⟨fun a b => funext fun d => d.elim0⟩

/-- The float pattern of +infinity denotes the top extended real. -/
theorem inf_pattern : Ideal.ofBits .f32 0x7F800000#32 = ⊤ := by simp [Ideal.ofBits, Ideal.ieee]

/-- An extended real whose absolute value is below +infinity is a real. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | top => simp [Ideal.cmp] at h
  | coe r => exact ⟨r, rfl⟩

/-- Under the precondition every entry of the points array and of the evaluation array is a real. -/
theorem real_of_pre (a0 : FVec Ideal S32x4096x3 .f32) (a1 : FVec Ideal S2048x3 .f32)
    (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨hA, hB⟩ := IntOp.andi_eq_one.1 h0
  refine ⟨fun i => ?_, fun i => ?_⟩
  · exact real_of_abs_lt_inf _ (Host.reduce_andi_all _ _ _ _ _ hA i)
  · exact real_of_abs_lt_inf _ (Host.reduce_andi_all _ _ _ _ _ hB i)

end Cert.Pre_finite_inputs.Finite

end
-- ==== Proof.lean ====
/-
  The kernel and its reference compute the same Gaussian sum.

  Inputs: points c(b, n) in R^3 (32 batches of 4096) and evaluation points d(k) in R^3 (2048 of them).  Both programs
  return, at (b, k), the sum over the 4096 points n of the batch of exp (s * |d(k) - c(b, n)|^2), the squared
  distance expanded as |c|^2 - 2 <c, d> + |d|^2 and s a negative float constant both carry as the same word.

  The reference groups the exponent as |c|^2 - (2 <c, d> - |d|^2), takes <c, d> from one matrix product, and sums
  over all n at once.  The kernel groups it as (|c|^2 - 2 <d, c>) + |d|^2, builds <d, c> by three multiply-adds from
  zero, and sums n in eight tiles of 512 into an accumulator that the last tile's step copies to the result block.
  Over the extended reals the two groupings agree once |c|^2 and |d|^2 are real numbers, which the precondition
  (every input entry finite) provides; sums may be regrouped freely.  So both result arrays are the one function G
  of the argument arrays (GaussSum): the reference's by reading its operations at an index (RefIsGaussSum), the
  kernel's by reading one step at an index (TileSum), folding the eight steps of a run (KernelIsGaussSum), and covering
  the result by the blocks written back.

  The three programs run and leave their arguments unchanged: for the kernel and its idealization that is the
  frame of the pipelined call; for the reference it is its run with the result dropped.  The idealization rewrote
  nothing, so there is nothing to preserve.
-/
import proofs.«159306_j4818953306928_1_alg».proof.Defs
import proofs.«159306_j4818953306928_1_alg».proof.Proof.Gen.Kernel
import proofs.«159306_j4818953306928_1_alg».proof.Proof.Gen.Kernel.Skeleton
import proofs.«159306_j4818953306928_1_alg».proof.Proof.Gen.Kernel.Launch
import proofs.«159306_j4818953306928_1_alg».proof.Proof.Gen.Kernel.Points
import proofs.«159306_j4818953306928_1_alg».proof.Proof.Gen.Kernel.Frame
import proofs.«159306_j4818953306928_1_alg».proof.Proof.Gen.KernelIdeal
import proofs.«159306_j4818953306928_1_alg».proof.Proof.Gen.KernelIdeal.Skeleton
import proofs.«159306_j4818953306928_1_alg».proof.Proof.Gen.KernelIdeal.Launch
import proofs.«159306_j4818953306928_1_alg».proof.Proof.Gen.KernelIdeal.Points
import proofs.«159306_j4818953306928_1_alg».proof.Proof.Gen.KernelIdeal.Frame
import proofs.«159306_j4818953306928_1_alg».proof.Proof.Gen.ReferenceIdeal
import proofs.«159306_j4818953306928_1_alg».proof.Proof.Gen.Pre_finite_inputs
import proofs.«159306_j4818953306928_1_alg».proof.Proof.Gen.KernelIdeal.Value
import proofs.«159306_j4818953306928_1_alg».proof.Proof.Gen.ReferenceIdeal.Run
import proofs.«159306_j4818953306928_1_alg».proof.Proof.Gen.ReferenceIdeal.Read
import Idealize.ShloMosaic.Adequacy
import Idealize.ShloMosaic.Init
import proofs.«159306_j4818953306928_1_alg».proof.Proof.KernelIsGaussSum
import proofs.«159306_j4818953306928_1_alg».proof.Proof.RefIsGaussSum
import proofs.«159306_j4818953306928_1_alg».proof.Proof.FiniteInputs

noncomputable section

namespace Cert.Proof

open Idealize.ShloMosaic Idealize.SL.Sem

/-- The kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the result array at G of the arguments:
    the kernel because its entries are real under the precondition, the reference unconditionally. -/
theorem algebraic : Cert.algebraic_KernelIdeal_ReferenceIdeal := by
  intro m ρ m' ρ' hpre hagree
  refine ⟨fun c => Cert.GaussSum.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.GaussValue.run m ρ (fun c => Cert.Pre_finite_inputs.Finite.real_of_pre _ _ (hpre c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.stage_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
